-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S8192x1 : Shape := ⟨2, ![8192, 1]⟩
abbrev S1x1 : Shape := ⟨2, ![1, 1]⟩
abbrev S64x8192 : Shape := ⟨2, ![64, 8192]⟩
abbrev S64x1 : Shape := ⟨2, ![64, 1]⟩
abbrev S64 : Shape := ⟨1, ![64]⟩
abbrev S1 : Shape := ⟨1, ![1]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192x1, .i32⟩
  | .hbm, ⟨3, _⟩ => ⟨S1x1, .f32⟩
  | .hbm, ⟨4, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S64x1, .i32⟩
  | .local _ .vmem, ⟨3, _⟩ => ⟨S64x1, .i32⟩
  | .local _ .vmem, ⟨4, _⟩ => ⟨S1x1, .f32⟩
  | .local _ .vmem, ⟨5, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v35 : BitVec 1 := Scalar.cmpi .eq arg0 c127_i32
  let v36 : BitVec 32 := Scalar.extui v35
  let c0_i32_12 : BitVec 32 := 0#32
  let v37 : BitVec 1 := Scalar.cmpi .ne v36 c0_i32_12
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x8192_S64x8192_0_0 : ∀ a, (![0, 0] : Fin 2 → Nat) a + S64x8192.size a ≤ S64x8192.size a
  h_S64x8192 : 0 < S64x8192.numel
  iota_S64x8192_d1_w32 : S64x8192.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  reduces_S64x8192_S64 : S64x8192.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S8192x8192.size a
  hwx0_0 : ∀ i : grid0.Coords, EltTy.bits .f32 = 32 ∨ (Rect.block (s := S8192x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S8192x1.size a
  hwx0_1 : ∀ i : grid0.Coords, EltTy.bits .i32 = 32 ∨ (Rect.block (s := S8192x1) S64x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192 : Shape := ⟨1, ![8192]⟩
abbrev S1x8192 : Shape := ⟨2, ![1, 8192]⟩
abbrev S8192x1 : Shape := ⟨2, ![8192, 1]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192, .i32⟩
  | .hbm, ⟨3, _⟩ => ⟨S1x8192, .i32⟩
  | .hbm, ⟨4, _⟩ => ⟨S8192x1, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .i1⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S8192_S8192x1_0 : S8192.BroadcastsInDim S8192x1 (![0] : Fin 1 → Fin S8192x1.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.KernelPieces.lean ====
/-
  What one grid point's body leaves behind, case by case, as pure functions of what it loaded.

  The body keeps a 1×1 running total in a scratch cell. With `x` the point's 64×8192 block of logits, `t` its 64×1
  block of targets and `acc` the cell's contents on entry, the body stores `step x t acc` into the cell, where
  `step` adds the block's total to `acc`. At the first point the cell is first reset to the zero block, so the
  cell ends at `step x t zero`; at the last point the output's 1×1 block additionally receives the cell divided by
  the entry count, `norm (step x t acc)`. These are the body's own store payloads: the lemmas below only read the
  stores the run found back through the whole-buffer loads.
-/
import proofs.«160574_j6648609374567_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Bce

open Cert.KernelIdeal Cert.KernelIdeal.Gen

variable {F : FTy → Type} [FloatOps F]

/-- The zero offsets of every access in the body. -/
theorem hz : (![0, 0] : Fin 2 → Nat) = fun _ => 0 := funext fun a => by fin_cases a <;> rfl

/-- The zero block the first point stores into the running total. -/
abbrev zero : FVec F S1x1 .f32 := k0_pay1

/-- One point's update of the running total: the entry contents plus the block's total. -/
abbrev step (x : Vec F S64x8192 .f32) (t : Vec F S64x1 .i32) (acc : Vec F S1x1 .f32) : FVec F S1x1 .f32 := k0_pay2 x t acc

/-- The last point's output: the running total over the entry count. -/
abbrev norm (acc : Vec F S1x1 .f32) : FVec F S1x1 .f32 := k0_pay3 acc

/-- A middle point leaves the running total updated by its block. -/
theorem scratch_B (c : Dev nD) (i : grid0.Coords) (a1 : Memref sig .tc .vmem S64x8192 .f32) (h1 : a1.IsWhole)
    (a2 : Memref sig .tc .vmem S64x1 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S64x8192 .f32) (x1 : Vec F S64x1 .i32) (xs0 : Vec F S1x1 .f32) :
    sout0_B_0 c i a1 h1 a2 h2 a3 h3 a4 h4 hc0 hc1 x0 x1 xs0 = step x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz]
  simp only [View.readAt_eq_ld, h1.read_unread, h2.read_unread, h4.read_unread, View.ld_unit_zero (S := S64x8192) hz,
    View.ld_unit_zero (S := S64x1) hz, View.ld_unit_zero (S := S1x1) hz]

/-- The first point resets the running total to zero, reads the zero back, and leaves it updated by its block. -/
theorem scratch_A (c : Dev nD) (i : grid0.Coords) (a1 : Memref sig .tc .vmem S64x8192 .f32) (h1 : a1.IsWhole)
    (a2 : Memref sig .tc .vmem S64x1 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S64x8192 .f32) (x1 : Vec F S64x1 .i32) :
    sout0_A_0 c i a1 h1 a2 h2 a3 h3 a4 h4 hc0 hc1 x0 x1 = step x0 x1 (zero (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, h4.read_unread, View.ld_unit_zero (S := S64x8192) hz,
    View.ld_unit_zero (S := S64x1) hz, View.ld_unit_zero (S := S1x1) hz]

/-- The last point leaves the running total updated by its block, -/
theorem scratch_C (c : Dev nD) (i : grid0.Coords) (a1 : Memref sig .tc .vmem S64x8192 .f32) (h1 : a1.IsWhole)
    (a2 : Memref sig .tc .vmem S64x1 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S64x8192 .f32) (x1 : Vec F S64x1 .i32) (xs0 : Vec F S1x1 .f32) :
    sout0_C_0 c i a1 h1 a2 h2 a3 h3 a4 h4 hc0 hc1 x0 x1 xs0 = step x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S64x8192) hz,
    View.ld_unit_zero (S := S64x1) hz, View.ld_unit_zero (S := S1x1) hz]

/-- and writes that updated total, divided by the entry count, into the output's block. -/
theorem out_C (c : Dev nD) (i : grid0.Coords) (a1 : Memref sig .tc .vmem S64x8192 .f32) (h1 : a1.IsWhole)
    (a2 : Memref sig .tc .vmem S64x1 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S64x8192 .f32) (x1 : Vec F S64x1 .i32) (xs0 : Vec F S1x1 .f32) :
    out0_C_2 c i a1 h1 a2 h2 a3 h3 a4 h4 hc0 hc1 x0 x1 xs0 = norm (step x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S64x8192) hz,
    View.ld_unit_zero (S := S64x1) hz, View.ld_unit_zero (S := S1x1) hz,
    View.readCov_unit_zero (S := S1x1) _ hz]

end Cert.KernelIdeal.Bce

end
-- ==== Proof.EntryLoss.lean ====
/-
  One entry of the binary-cross-entropy-with-logits loss on the extended reals, and the sum over all
  entries cut into row blocks.

  For a logit `x` in row `r`, column `j`, with the row's integer target `t`:
    entry = softplus(x) − (x if j < t else 0),   softplus(x) = max(x, 0) + log(1 + exp(−|x − 0|)).
  The mean loss is (0 + Σ entries) / 2^26 over the 8192 × 8192 logits.

  The two programs spell an entry differently; over the extended reals the spellings agree:
    • a comparison of a value with itself for "not equal" is false, so the guard that selects `x + 0` never fires;
    • `0 − a` is `−a`;
    • `x · 1 = x` and `x · 0 = 0`, so multiplying by the 0/1 mask is selecting `x` or `0` (no finiteness needed:
      the extended reals have `⊤ · 0 = 0`).
  And the total over the 8192 rows is the total over 128 blocks of 64 consecutive rows (row 64·t + r), in any order:
  addition on the extended reals is commutative and associative.
-/
import Idealize.ShloMosaic.PureOps.Ideal
import Idealize.ShloMosaic.PureOps.Ideal.Laws
import Idealize.ShloMosaic.Lib.ValueIdx

noncomputable section

namespace BceLoss

open Idealize.ShloMosaic Idealize.ShloMosaic.ValueIdx

/-- The float zero both programs write as the word `0x00000000`. -/
abbrev z : EReal := Ideal.ofBits .f32 0x00000000#32

theorem z_eq : z = 0 := Ideal.ofBits_zero_f32

/-- The divisor 2^26 = 8192 · 8192, the word `0x4C800000` in both programs. -/
abbrev count : EReal := Ideal.ofBits .f32 0x4C800000#32

/-- softplus(x) = max(x, 0) + log(1 + exp(−|x − 0|)), the numerically stable form both programs compute. -/
def softplus (x : EReal) : EReal :=
  max x z + Ideal.log1p (Ideal.exp (-(max (x - z) (-(x - z)))))

/-- What one logit contributes: softplus(x) minus the logit where the mask bit keeps it. -/
def entry (x : EReal) (keep : BitVec 1) : EReal :=
  softplus x - Scalar.select keep x z

/-- Column `j` lies below the target `t`: the signed 32-bit comparison both programs make. -/
def below (j : Nat) (t : BitVec 32) : BitVec 1 := IntOp.cmpi .slt (BitVec.ofNat 32 j) t

/-- "Not equal to itself" is false on a linear order, ordered or unordered reading alike. -/
theorem cmp_one_self (d : EReal) : Ideal.cmp .one d d = 0#1 := by simp [Ideal.cmp]
theorem cmp_une_self (d : EReal) : Ideal.cmp .une d d = 0#1 := by simp [Ideal.cmp]

/-- Zero minus a value is its negative. -/
theorem z_sub (a : EReal) : z - a = -a := by rw [z_eq, zero_sub]

/-- Multiplying by the mask bit read as 0 or 1 selects the logit or zero. -/
theorem mul_mask (x : EReal) (b : BitVec 1) : x * ((b.toNat : ℝ) : EReal) = Scalar.select b x z := by
  rcases BitVec.eq_zero_or_eq_one b with rfl | rfl
  · rw [select_zero, z_eq]; simp
  · rw [select_one]; simp

/-- Row `r` of block `k`: row 64·k + r of the 8192. -/
def rowN (k : ℕ) (hk : k < 128) (r : Fin 64) : Fin 8192 := ⟨64 * k + r.val, by have := r.isLt; omega⟩

/-- The same with the block as a bounded number. -/
def rowOf (t : Fin 128) (r : Fin 64) : Fin 8192 := rowN t.val t.isLt r

/-- A sum over the 8192 rows is the sum over the 128 blocks of the sums over each block's 64 rows. -/
theorem sum_rows_blocks {M : Type*} [AddCommMonoid M] (f : Fin 8192 → M) :
    ∑ a : Fin 8192, f a = ∑ t : Fin 128, ∑ r : Fin 64, f (rowOf t r) := by
  rw [← Equiv.sum_comp (finProdFinEquiv.trans (finCongr (by norm_num : 128 * 64 = 8192))) f, Fintype.sum_prod_type]
  refine Finset.sum_congr rfl fun t _ => Finset.sum_congr rfl fun r _ => ?_
  congr 1
  apply Fin.ext
  show r.val + 64 * t.val = 64 * t.val + r.val
  omega

/-- The 8192 × 8192 logits and the 8192 integer targets, one per row. -/
abbrev Logits := (⟨2, ![8192, 8192]⟩ : Shape).Idx → EReal
abbrev Targets := (⟨1, ![8192]⟩ : Shape).Idx → BitVec 32

/-- The loss of the logit in row `a`, column `j`. -/
def lossAt (X : Logits) (T : Targets) (a j : Fin 8192) : EReal := entry (X (ix2 a j)) (below j.val (T (ix1 a)))

/-- The total of block `k`'s 64 rows, each summed over its 8192 columns (zero past the 128th block). -/
def blockTotal (X : Logits) (T : Targets) (k : ℕ) : EReal :=
  if hk : k < 128 then ∑ r : Fin 64, ∑ j : Fin 8192, lossAt X T (rowN k hk r) j else 0

/-- The total over every entry. -/
def total (X : Logits) (T : Targets) : EReal := ∑ i : (⟨2, ![8192, 8192]⟩ : Shape).Idx, lossAt X T (i 0) (i 1)

/-- The mean loss as both programs form it: the zero word plus the total, over the entry count. -/
def mean (X : Logits) (T : Targets) : EReal := Ideal.div (z + total X T) count

/-- The 128 block totals add up to the total over every entry: the rows regrouped, no order of summation mattering. -/
theorem sum_blockTotal (X : Logits) (T : Targets) : ∑ k ∈ Finset.range 128, blockTotal X T k = total X T := by
  unfold total
  rw [sum_idx2, Finset.sum_range]
  show _ = ∑ a : Fin 8192, ∑ b : Fin 8192, lossAt X T a b
  rw [sum_rows_blocks fun a => ∑ b : Fin 8192, lossAt X T a b]
  refine Finset.sum_congr rfl fun t _ => ?_
  unfold blockTotal
  rw [dif_pos t.isLt]
  rfl

end BceLoss

end
-- ==== Proof.KernelStep.lean ====
/-
  One grid point's update of the running total, read on the extended reals.

  The body forms the block's 64×8192 array of entry losses, sums each row over its 8192 columns, sums the 64 row sums,
  and adds the result to the running total. Read at the 1×1 block's one index this is
      acc + Σ_{r < 64} Σ_{j < 8192} entry(x[r, j], j < t[r]),
  each entry the loss of `EntryLoss`: both reductions start from the zero word and are plain sums over the extended reals.
-/
import proofs.«160574_j6648609374567_1_alg».proof.Proof.KernelPieces
import proofs.«160574_j6648609374567_1_alg».proof.Proof.EntryLoss
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Bce

open Cert.KernelIdeal Cert.KernelIdeal.Gen

/-- Every index of a 1×1 block is (0, 0). -/
theorem idx11 (y : S1x1.Idx) : y = ix2 (0 : Fin 1) (0 : Fin 1) :=
  funext fun a => Fin.ext (match a with
    | ⟨0, _⟩ => by have := idx2_lt0 y; show (y 0).val = 0; omega
    | ⟨1, _⟩ => by have := idx2_lt1 y; show (y 1).val = 0; omega)

/-- One entry of the block's loss array, read at row `r`, column `j`: softplus of the logit minus the logit where the
    column lies below the row's target. The guard on "the difference differs from itself" never fires, and
    `0 − |d|` is `−|d|`. -/
theorem lossBlock_apply (x : FVec Ideal S64x8192 .f32) (t : IVec S64x1 32) (r : Fin 64) (j : Fin 8192) :
    (subf
        (select
          (cmpf CmpFPredicate.one (subf x (broadcast S64x8192 (FloatOps.ofBits FTy.f32 0#32)))
            (subf x (broadcast S64x8192 (FloatOps.ofBits FTy.f32 0#32))))
          (addf x (broadcast S64x8192 (FloatOps.ofBits FTy.f32 0#32)))
          (addf (maximumf x (broadcast S64x8192 (FloatOps.ofBits FTy.f32 0#32)))
            (log1p
              (exp
                (subf (broadcast S64x8192 (FloatOps.ofBits FTy.f32 0#32))
                  (absf (subf x (broadcast S64x8192 (FloatOps.ofBits FTy.f32 0#32)))))))))
        (select
          (cmpi CmpIPredicate.slt (iota Kind.tc S64x8192 32 [1] iota_S64x8192_d1_w32)
            (broadcastTo S64x8192 (shapeCast S64x1 t shapeCasts_S64x1_S64x1) broadcasts_S64x1_S64x8192))
          x (broadcast S64x8192 (FloatOps.ofBits FTy.f32 0#32))) : FVec Ideal S64x8192 .f32) (ix2 r j)
      = BceLoss.entry (x (ix2 r j)) (BceLoss.below j.val (t (ix2 r (0 : Fin 1)))) := by
  have hi : iota Kind.tc S64x8192 32 [1] iota_S64x8192_d1_w32 (ix2 r j) = BitVec.ofNat 32 j.val :=
    iota_single_apply _ _ _ _ _ _
  have hb : broadcastTo S64x8192 (shapeCast S64x1 t shapeCasts_S64x1_S64x1) broadcasts_S64x1_S64x8192 (ix2 r j)
      = t (ix2 r (0 : Fin 1)) := by
    rw [shapeCast_self]
    exact broadcastTo_apply t broadcasts_S64x1_S64x8192 (ix2 r j) (ix2 r (0 : Fin 1)) (fun a => match a with
      | ⟨0, _⟩ => by show r.val = if (64 : Nat) = 1 then 0 else r.val; rw [if_neg (by decide)]
      | ⟨1, _⟩ => by show 0 = if (1 : Nat) = 1 then 0 else j.val; rw [if_pos rfl])
  show Scalar.select (Ideal.cmp .one (x (ix2 r j) - BceLoss.z) (x (ix2 r j) - BceLoss.z)) (x (ix2 r j) + BceLoss.z)
        (max (x (ix2 r j)) BceLoss.z + Ideal.log1p (Ideal.exp (BceLoss.z - max (x (ix2 r j) - BceLoss.z) (-(x (ix2 r j) - BceLoss.z)))))
      - Scalar.select (IntOp.cmpi .slt (iota Kind.tc S64x8192 32 [1] iota_S64x8192_d1_w32 (ix2 r j))
          (broadcastTo S64x8192 (shapeCast S64x1 t shapeCasts_S64x1_S64x1) broadcasts_S64x1_S64x8192 (ix2 r j)))
        (x (ix2 r j)) BceLoss.z = _
  rw [hi, hb, BceLoss.cmp_one_self, select_zero, BceLoss.z_sub]
  rfl

/-- One point's update read at the block's one index: the entry contents plus the total of the block's 64 × 8192
    entries, rows first, then columns within a row (a lane sum per row, then a sum over the rows). -/
theorem step_apply (x : Vec Ideal S64x8192 .f32) (t : Vec Ideal S64x1 .i32) (acc : Vec Ideal S1x1 .f32) (y : S1x1.Idx) :
    step (F := Ideal) x t acc y
      = acc y + ∑ r : Fin 64, ∑ j : Fin 8192, BceLoss.entry (x (ix2 r j)) (BceLoss.below j.val (t (ix2 r (0 : Fin 1)))) := by
  unfold step k0_pay2
  dsimp only
  rw [shapeCast_self]
  show acc y + _ = acc y + _
  congr 1
  obtain rfl := idx11 y
  refine (shapeCast_apply _ shapeCasts_S1_S1x1 (ix2 (0 : Fin 1) (0 : Fin 1)) (ix1 (0 : Fin 1)) (by
    rw [Shape.rowMajor_val_one, Shape.rowMajor_val_two]; rfl)).trans ?_
  refine (Ideal.multiReduction_add_single _ _ _ _ _ _).trans ?_
  refine Finset.sum_congr rfl fun r _ => ?_
  have hr : reduces_S64x1_S1.lift (ix1 (0 : Fin 1)) r = ix2 r (0 : Fin 1) :=
    funext fun a => Fin.ext (match a with | ⟨0, _⟩ => rfl | ⟨1, _⟩ => rfl)
  rw [hr]
  refine (shapeCast_apply _ shapeCasts_S64_S64x1 (ix2 r (0 : Fin 1)) (ix1 r) (by
    rw [Shape.rowMajor_val_one, Shape.rowMajor_val_two]; show r.val = r.val * 1 + 0; omega)).trans ?_
  refine (Ideal.multiReduction_add_single _ _ _ _ _ _).trans ?_
  refine Finset.sum_congr rfl fun j _ => ?_
  have hj : reduces_S64x8192_S64.lift (ix1 r) j = ix2 r j :=
    funext fun a => Fin.ext (match a with | ⟨0, _⟩ => rfl | ⟨1, _⟩ => rfl)
  rw [hj]
  exact lossBlock_apply x t r j

end Cert.KernelIdeal.Bce

end
-- ==== Proof.KernelTotal.lean ====
/-
  The running total point by point, and the last point's output.

  The carried scratch cell after point `n` holds the zero block updated by the blocks of points 0 … n in turn
  (induction on the point over the three control cases). Point `t`'s blocks are rows 64·t … 64·t + 63 of the logits and
  of the targets (the targets reshaped to a column before the region). On the extended reals the running total after
  point `n` is therefore the zero word plus the totals of blocks 0 … n, and at the last point, n = 127, the output's block
  receives (0 + the total over every entry) / 2^26: the mean loss.
-/
import proofs.«160574_j6648609374567_1_alg».proof.Proof.KernelStep
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Bce

open Cert.KernelIdeal Cert.KernelIdeal.Gen

section AnyInstance

variable {F : FTy → Type} [FloatOps F]
variable (m : (ℓ : Loc nD τ sig) → Buf (Elt F) ℓ)

/-- Point `t`'s block of logits (rows 64·t … 64·t + 63, all columns) and of targets (the same rows). -/
abbrev xblk (c : Dev nD) (t : Fin cfg0.N) : Vec F S64x8192 .f32 := iblk m c 0 t
abbrev tblk (c : Dev nD) (t : Fin cfg0.N) : Vec F S64x1 .i32 := iblk m c 1 t

/-- The running total after point `n`: the zero block updated by the blocks of points 0, 1, …, n in turn. -/
def accAfter (c : Dev nD) : (n : ℕ) → n < cfg0.N → Vec F S1x1 .f32
  | 0, h => step (xblk m c ⟨0, h⟩) (tblk m c ⟨0, h⟩) zero
  | n + 1, h => step (xblk m c ⟨n + 1, h⟩) (tblk m c ⟨n + 1, h⟩) (accAfter c n (Nat.lt_of_succ_lt h))

/-- What the carried scratch cell holds after point `n` is that running total: by induction on the point, the first
    point resetting the cell, every later one (the last included) updating what the point before left. -/
theorem scratch_after (c : Dev nD) : ∀ (n : ℕ) (h : n < cfg0.N), (outsAt0 m c n h).2 = accAfter m c n h
  | 0, h => by
    rw [outsAt0_A m c ⟨0, h⟩ rfl (by show ¬(0 % 128 = 127); decide)]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) _ _ (iblk m c 0 ⟨0, h⟩) (iblk m c 1 ⟨0, h⟩)
  | n + 1, h => by
    have hN : cfg0.N = 128 := N_0
    have h0 : ¬(⟨n + 1, h⟩ : Fin cfg0.N).val % 128 = 0 := by dsimp only; omega
    by_cases h1 : (⟨n + 1, h⟩ : Fin cfg0.N).val % 128 = 127
    · rw [outsAt0_C m c ⟨n + 1, h⟩ h0 h1]
      dsimp only
      refine (scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) _).trans ?_
      show step _ _ (outsAt0 m c n _).2 = step _ _ (accAfter m c n _)
      rw [scratch_after c n]
    · rw [outsAt0_B m c ⟨n + 1, h⟩ h0 h1]
      dsimp only
      refine (scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) _ _ (iblk m c 0 ⟨n + 1, h⟩) (iblk m c 1 ⟨n + 1, h⟩) _).trans ?_
      show step _ _ (outsAt0 m c n _).2 = step _ _ (accAfter m c n _)
      rw [scratch_after c n]

/-- At the last point the output's staging buffer receives the running total after that point, over the entry count. -/
theorem out_last (c : Dev nD) (t : Fin cfg0.N) (h1 : t.val % 128 = 127) :
    (outsAt0 m c t.val t.isLt).1 = norm (accAfter m c t.val t.isLt) := by
  obtain ⟨n, hn⟩ := t
  have hN : cfg0.N = 128 := N_0
  cases n with
  | zero => exact absurd h1 (by show ¬(0 % 128 = 127); decide)
  | succ n =>
    have h0 : ¬(⟨n + 1, hn⟩ : Fin cfg0.N).val % 128 = 0 := by dsimp only at h1 ⊢; omega
    rw [outsAt0_C m c ⟨n + 1, hn⟩ h0 h1]
    dsimp only
    refine (out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) _ _ (iblk m c 0 ⟨n + 1, hn⟩) (iblk m c 1 ⟨n + 1, hn⟩) _).trans ?_
    show norm (step _ _ (outsAt0 m c n _).2) = norm (step _ _ (accAfter m c n _))
    rw [scratch_after m c n]

/-- The two input windows' block index at point `t` is (t, 0): decided over the grid. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (r, j) of point `t`'s block of logits is the logit in row 64·t + r, column j. -/
theorem xblk_apply (c : Dev nD) (t : Fin cfg0.N) (r : Fin 64) (j : Fin 8192) (a : Fin 8192) (ha : a.val = 64 * t.val + r.val) :
    xblk m c t (ix2 r j) = m ((c : Thread nD τ).loc main_arg0) (ix2 a j) := by
  unfold xblk iblk
  rw [View.read_apply]
  show V m c main_arg0 _ = _
  rw [V_main_arg0 m c]
  refine congrArg _ (funext fun d => Fin.ext ?_)
  match d with
  | ⟨0, _⟩ => show win0_0.index t 0 * 64 + 1 * r.val = a.val; rw [(idx_facts t).1, ha]; omega
  | ⟨1, _⟩ => show win0_0.index t 1 * 8192 + 1 * j.val = j.val; rw [(idx_facts t).2.1]; omega

/-- The targets reach the kernel as a column: the 8192 targets reshaped to 8192 × 1 before the region. -/
theorem targets_col (c : Dev nD) :
    (V m c main_v0 : S8192x1.Idx → Elt F .i32) = shapeCast S8192x1 (m ((c : Thread nD τ).loc main_arg1)) shapeCasts_S8192_S8192x1 := by
  show StableHlo.after hostOps0 (fun b => m (c, b)) (Proc.devRef .tc main_v0) = _
  after_results
  rfl

/-- Entry (r, 0) of point `t`'s block of targets is the target of row 64·t + r. -/
theorem tblk_apply (c : Dev nD) (t : Fin cfg0.N) (r : Fin 64) (a : Fin 8192) (ha : a.val = 64 * t.val + r.val) :
    tblk m c t (ix2 r (0 : Fin 1)) = m ((c : Thread nD τ).loc main_arg1) (ix1 a) := by
  unfold tblk iblk
  rw [View.read_apply]
  show V m c main_v0 _ = _
  refine (congrFun (targets_col m c) _).trans ?_
  refine shapeCast_apply _ shapeCasts_S8192_S8192x1 _ (ix1 a) ?_
  rw [Shape.rowMajor_val_one, Shape.rowMajor_val_two]
  show a.val = (win0_1.index t 0 * 64 + 1 * r.val) * 1 + (win0_1.index t 1 * 1 + 1 * 0)
  rw [(idx_facts t).2.2.1, (idx_facts t).2.2.2, ha]; omega

end AnyInstance

section AtIdeal

variable (m : (ℓ : Loc nD τ sig) → Buf (Elt Ideal) ℓ)

/-- The logits and the targets as the run finds them. -/
abbrev logits (c : Dev nD) : BceLoss.Logits := m ((c : Thread nD τ).loc main_arg0)
abbrev targets (c : Dev nD) : BceLoss.Targets := m ((c : Thread nD τ).loc main_arg1)

/-- The total of point `t`'s block, read through the windows, is block `t`'s total of the arrays. -/
theorem block_total (c : Dev nD) (t : Fin cfg0.N) :
    ∑ r : Fin 64, ∑ j : Fin 8192, BceLoss.entry (xblk m c t (ix2 r j)) (BceLoss.below j.val (tblk m c t (ix2 r (0 : Fin 1))))
      = BceLoss.blockTotal (logits m c) (targets m c) t.val := by
  have ht : t.val < 128 := lt_of_lt_of_eq t.isLt N_0
  unfold BceLoss.blockTotal
  rw [dif_pos ht]
  refine Finset.sum_congr rfl fun r _ => Finset.sum_congr rfl fun j _ => ?_
  rw [xblk_apply m c t r j (BceLoss.rowN t.val ht r) rfl, tblk_apply m c t r (BceLoss.rowN t.val ht r) rfl]
  rfl

/-- The zero block holds the zero word. -/
theorem zero_apply (y : S1x1.Idx) : zero (F := Ideal) y = BceLoss.z := by
  unfold zero k0_pay1
  rw [shapeCast_self]
  rfl

/-- The running total after point `n`, at the cell's one index: the zero word plus the totals of blocks 0 … n. -/
theorem accAfter_apply (c : Dev nD) : ∀ (n : ℕ) (h : n < cfg0.N) (y : S1x1.Idx),
    accAfter m c n h y = BceLoss.z + ∑ k ∈ Finset.range (n + 1), BceLoss.blockTotal (logits m c) (targets m c) k
  | 0, h, y => by
    show step (xblk m c ⟨0, h⟩) (tblk m c ⟨0, h⟩) (zero (F := Ideal)) y = _
    rw [step_apply, block_total m c ⟨0, h⟩, zero_apply, Finset.sum_range_one]
  | n + 1, h, y => by
    show step (xblk m c ⟨n + 1, h⟩) (tblk m c ⟨n + 1, h⟩) (accAfter m c n _) y = _
    rw [step_apply, accAfter_apply c n _ y, block_total m c ⟨n + 1, h⟩, Finset.sum_range_succ _ (n + 1), add_assoc]

/-- The last point's output is the mean loss: the running total after all 128 blocks is the zero word plus the total
    over every entry, and the output is that over the entry count. -/
theorem out_apply (c : Dev nD) (t : Fin cfg0.N) (h1 : t.val % 128 = 127) (y : S1x1.Idx) :
    (outsAt0 m c t.val t.isLt).1 y = BceLoss.mean (logits m c) (targets m c) := by
  rw [out_last m c t h1]
  show Ideal.div (accAfter m c t.val t.isLt y) BceLoss.count = _
  rw [accAfter_apply m c t.val t.isLt y]
  have hN : t.val < 128 := lt_of_lt_of_eq t.isLt N_0
  have : t.val + 1 = 128 := by omega
  rw [this, BceLoss.sum_blockTotal]
  rfl

end AtIdeal

end Cert.KernelIdeal.Bce

end
-- ==== Proof.KernelResult.lean ====
/-
  What the kernel program's result holds after the run, on the extended reals: the mean loss.

  The output window's one block is the whole 1×1 result array and is written back once, at the last point, with the
  mean loss (`KernelTotal.out_apply`); that point's block covers the array's one index, so the array ends holding it.
  @main then reshapes the 1×1 array to a scalar, which holds the same number, and neither argument is written.
-/
import proofs.«160574_j6648609374567_1_alg».proof.Proof.KernelTotal
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Bce

open Cert.KernelIdeal Cert.KernelIdeal.Gen

variable (m : (ℓ : Loc nD τ sig) → Buf (Elt Ideal) ℓ) (ρ : Dev nD → PrngReg)

/-- The region's 1×1 result array, and @main's scalar result: the mean loss at the one index. -/
abbrev meanBlock (c : Dev nD) : Buf (Elt Ideal) ((c : Thread nD τ).loc main_v1) := fun _ => BceLoss.mean (logits m c) (targets m c)
abbrev meanScalar (c : Dev nD) : Buf (Elt Ideal) ((c : Thread nD τ).loc main_v2) := fun _ => BceLoss.mean (logits m c) (targets m c)

/-- The one write-back, at the last point, writes the mean loss: the block read through the window is the constant. -/
theorem flushed_eq (c : Dev nD) (t : Fin cfg0.N) (hf : (cfg0.win 2).flush t = true) :
    (dats m 0 c).flushed 2 t = ((cfg0.win 2).blk t).view.read (Elt Ideal) (meanBlock m c) := by
  have h1 : t.val % 128 = 127 := (flush0_2 t).mp hf
  funext y
  rw [View.read_apply]
  show (dats m 0 c).after 2 t ((cfg0.win 2).xinj (grid0.coords t) y) = BceLoss.mean _ _
  refine (congrFun (after0_2 m c t) _).trans ?_
  exact out_apply m c t h1 _

/-- The output window's block is the whole 1×1 array at every point: block index (0, 0), extents 1 × 1. -/
theorem out_facts : ∀ t : Fin cfg0.N, win0_2.index t (0 : Fin 2) = 0 ∧ win0_2.index t (1 : Fin 2) = 0
    ∧ win0_2.xsize (grid0.coords t) (0 : Fin 2) = 1 ∧ win0_2.xsize (grid0.coords t) (1 : Fin 2) = 1 :=
  (by decide +kernel : ∀ t : Fin grid0.N, _)

/-- The last of the 128 points. -/
abbrev lastPoint : Fin cfg0.N := ⟨127, by rw [show cfg0.N = 128 from N_0]; decide⟩

/-- So the region's result array ends holding the mean loss: the last point's block covers its one index. -/
theorem final_out (c : Dev nD) : (dats m 0 c).arrAt 2 cfg0.N = meanBlock m c :=
  (dats m 0 c).arrAt_eq_of_cover 2 (meanBlock m c) (flushed_eq m c) fun i => by
    refine ⟨lastPoint, (flush0_2 lastPoint).mpr rfl, ?_⟩
    show i ∈ ((View.whole main_v1).slice (win0_2.rect lastPoint)).set
    rw [View.set_slice_whole, Rect.mem_set_unit]
    intro a
    have h0 : (i 0 : Nat) < 1 := (i 0).isLt
    have h1 : (i 1 : Nat) < 1 := (i 1).isLt
    match a with
    | ⟨0, _⟩ =>
      show win0_2.index lastPoint 0 * win0_2.size 0 ≤ (i 0 : Nat) ∧ (i 0 : Nat) < win0_2.index lastPoint 0 * win0_2.size 0 + win0_2.xsize (grid0.coords lastPoint) 0
      rw [(out_facts lastPoint).1, (out_facts lastPoint).2.2.1]; omega
    | ⟨1, _⟩ =>
      show win0_2.index lastPoint 1 * win0_2.size 1 ≤ (i 1 : Nat) ∧ (i 1 : Nat) < win0_2.index lastPoint 1 * win0_2.size 1 + win0_2.xsize (grid0.coords lastPoint) 1
      rw [(out_facts lastPoint).2.1, (out_facts lastPoint).2.2.2]; omega

/-- @main's result is the region's 1×1 array reshaped to a scalar: the mean loss again. -/
theorem tail_eq (c : Dev nD) :
    Pipeline.afterTail₀ cfgs (dats m) 0 (V0 m) [hostOps1] c main_v2 = meanScalar m c := by
  unfold Pipeline.afterTail₀
  show StableHlo.after hostOps1 _ (Proc.devRef .tc main_v2) = _
  after_results
  funext i
  exact (congrFun (congrArg (fun v => shapeCast S_ v shapeCasts_S1x1_S_)
    ((Pipeline.withArrays_arr spec0 launch0.win.arr_inj c (V0 m c) (fun w => (dats m 0 c).arrAt w cfg0.N) 2).trans
      (final_out m c))) i).trans rfl

/-- The run, read: @main's result at the mean loss of the arguments, the arguments unchanged. -/
theorem run : θ_run defs (onTc (τ := τ) (main (F := Ideal))) ⟨m, fun _ => 0, ρ⟩ fun r => ∀ c : Dev nD,
      r.2.mem ((c.tc : Thread nD τ).loc main_v2) = meanScalar m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Bce

end
-- ==== Proof.RefMean.lean ====
/-
  The reference program's result on the extended reals is the mean loss of `EntryLoss`.

  The reference forms the 0/1 mask "column below the row's target" as a float, multiplies the logits by it, subtracts
  the product from softplus of the logits, sums every entry from the zero word and divides by the entry count.
  Entry by entry that is the loss of `EntryLoss`: the product with the mask is the logit or zero, and the guard on
  "the difference differs from itself" never fires.
-/
import proofs.«160574_j6648609374567_1_alg».proof.Proof.Gen.ReferenceIdeal.Read
import proofs.«160574_j6648609374567_1_alg».proof.Proof.EntryLoss
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.Bce

open Cert.ReferenceIdeal Cert.ReferenceIdeal.Gen Cert.ReferenceIdeal.Read

/-- Entry (a, b) of the reference's loss array is the loss of the logit in row `a`, column `b`. -/
theorem loss_apply (x0 : (⟨S8192x8192, .f32⟩ : BufTy).Contents (Elt Ideal)) (x1 : (⟨S8192, .i32⟩ : BufTy).Contents (Elt Ideal))
    (a b : Fin 8192) : val_main_v9 (F := Ideal) x0 x1 (ix2 a b) = BceLoss.lossAt x0 x1 a b := by
  have hcol : idx_main_v1 (idx_main_v3 (ix2 a b)) = ix1 b := funext fun d => match d with | ⟨0, _⟩ => rfl
  have hrow : idx_main_v2 (idx_main_v4 (ix2 a b)) = ix1 a := funext fun d => match d with | ⟨0, _⟩ => rfl
  rw [val_main_v9_apply, val_main_v7_apply, val_main_v8_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_v6_apply, val_main_v5_apply,
    val_main_v3_apply, val_main_v4_apply, val_main_v1_apply, val_main_v2_apply, val_main_v0_apply,
    val_main_call0_v0_apply, val_main_call0_v2_apply, val_main_call0_v5_apply, val_main_call0_cst_apply, hcol, hrow]
  show Scalar.select (Ideal.cmp .une (x0 (ix2 a b) - BceLoss.z) (x0 (ix2 a b) - BceLoss.z)) (x0 (ix2 a b) + BceLoss.z)
        (max (x0 (ix2 a b)) BceLoss.z + Ideal.log1p (Ideal.exp (-(max (x0 (ix2 a b) - BceLoss.z) (-(x0 (ix2 a b) - BceLoss.z))))))
      - x0 (ix2 a b) * (((IntOp.cmpi .slt (BitVec.ofNat 32 b.val) (x1 (ix1 a))).toNat : ℝ) : EReal) = _
  rw [BceLoss.cmp_une_self, select_zero, BceLoss.mul_mask]
  rfl

/-- The reference's result, at its one index, is the mean loss. -/
theorem mean_eq (x0 : (⟨S8192x8192, .f32⟩ : BufTy).Contents (Elt Ideal)) (x1 : (⟨S8192, .i32⟩ : BufTy).Contents (Elt Ideal))
    (i : S_.Idx) : val_main_v11 (F := Ideal) x0 x1 i = BceLoss.mean x0 x1 := by
  rw [val_main_v11_apply, val_main_v10_apply, val_main_cst_apply, val_main_cst_0_apply]
  show Ideal.div (BceLoss.z + ∑ j : S8192x8192.Idx, val_main_v9 (F := Ideal) x0 x1 j) BceLoss.count = _
  unfold BceLoss.mean BceLoss.total
  refine congrArg (fun s => Ideal.div (BceLoss.z + s) BceLoss.count) (Finset.sum_congr rfl fun j _ => ?_)
  rw [eq_ix2 j]
  exact loss_apply x0 x1 (j 0) (j 1)

end Cert.ReferenceIdeal.Bce

end
-- ==== Proof.lean ====
/-
  Binary cross-entropy with logits against a threshold mask, mean-reduced: the kernel and its reference agree over
  the extended reals.

  Inputs: logits x[8192, 8192] (f32) and one integer target t[8192] per row. With the mask "column j lies below the
  row's target" (a signed 32-bit comparison), the loss is
      mean over all entries of  softplus(x[i, j]) − (x[i, j] if j < t[i] else 0),
      softplus(x) = max(x, 0) + log(1 + exp(−|x − 0|)).

  The kernel walks 128 blocks of 64 rows. At each grid point it forms the block's entry losses (selecting the logit
  or zero by the mask), sums each row over its 8192 columns, sums the 64 row sums, and adds that to a 1×1 running
  total carried between points (reset to zero at the first point); at the last point it writes the running total
  divided by 2^26 = 8192 · 8192 into its 1×1 result, which @main reshapes to a scalar. The reference builds the mask as
  a 0/1 float, multiplies the logits by it, subtracts from softplus, sums every entry from zero and divides by 2^26.

  Over the extended reals the two agree for every input, finite or not:
    • entry by entry: multiplying by the 0/1 mask is selecting the logit or zero (`x · 1 = x`, `x · 0 = 0`, also at the
      infinities); `0 − a = −a`; the guard "the difference differs from itself", which both programs carry, is never taken
      on a linear order (`EntryLoss`, `KernelStep`, `RefMean`);
    • the total: addition on the extended reals is commutative and associative, so the 128 block totals, accumulated
      in point order from zero, are the total over every entry (`EntryLoss.sum_blockTotal`, `KernelTotal`);
    • the divisor is the same word on both sides.
  Both results are `BceLoss.mean` of the arguments (`KernelResult.run`, `RefMean.mean_eq`).

  The three frames: the kernel's at both instances are the generated frame certificates; the reference has no kernel,
  and its frame is its generated run with the result dropped. The ideal pass rewrote nothing, so `preserves` is trivial.
-/
import proofs.«160574_j6648609374567_1_alg».proof.Defs
import proofs.«160574_j6648609374567_1_alg».proof.Proof.Gen.Kernel
import proofs.«160574_j6648609374567_1_alg».proof.Proof.Gen.Kernel.Skeleton
import proofs.«160574_j6648609374567_1_alg».proof.Proof.Gen.Kernel.Launch
import proofs.«160574_j6648609374567_1_alg».proof.Proof.Gen.Kernel.Points
import proofs.«160574_j6648609374567_1_alg».proof.Proof.Gen.Kernel.Frame
import proofs.«160574_j6648609374567_1_alg».proof.Proof.Gen.KernelIdeal
import proofs.«160574_j6648609374567_1_alg».proof.Proof.Gen.KernelIdeal.Skeleton
import proofs.«160574_j6648609374567_1_alg».proof.Proof.Gen.KernelIdeal.Launch
import proofs.«160574_j6648609374567_1_alg».proof.Proof.Gen.KernelIdeal.Points
import proofs.«160574_j6648609374567_1_alg».proof.Proof.Gen.KernelIdeal.Frame
import proofs.«160574_j6648609374567_1_alg».proof.Proof.Gen.ReferenceIdeal
import proofs.«160574_j6648609374567_1_alg».proof.Proof.Gen.ReferenceIdeal.Run
import proofs.«160574_j6648609374567_1_alg».proof.Proof.Gen.ReferenceIdeal.Read
import proofs.«160574_j6648609374567_1_alg».proof.Proof.Gen.Pre_finite_inputs
import proofs.«160574_j6648609374567_1_alg».proof.Proof.KernelResult
import proofs.«160574_j6648609374567_1_alg».proof.Proof.RefMean
import Idealize.ShloMosaic.Adequacy
import Idealize.ShloMosaic.Init

noncomputable section

namespace Cert.Proof

open Idealize.ShloMosaic Idealize.SL.Sem

/-- The kernel as printed, and read at the extended reals: the generated frame certificates. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

/-- Both programs end at the mean loss of the same arguments. -/
theorem algebraic : Cert.algebraic_KernelIdeal_ReferenceIdeal := by
  intro m ρ m' ρ' _ hagree
  refine ⟨fun c => Cert.KernelIdeal.Bce.meanScalar m c, Cert.KernelIdeal.Bce.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v11_eq _ _).trans ?_
  funext i
  exact Cert.ReferenceIdeal.Bce.mean_eq _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
